-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x8x64 : Shape := ⟨3, ![200000, 8, 64]⟩
abbrev S200000x8 : Shape := ⟨2, ![200000, 8]⟩
abbrev S200000 : Shape := ⟨1, ![200000]⟩
abbrev S1 : Shape := ⟨1, ![1]⟩
abbrev S_ : Shape := ⟨0, ![]⟩

class Facts : Prop where
  bcast_S_S200000x8x64 : S_.BroadcastsInDim S200000x8x64 (![] : Fin 0 → Fin S200000x8x64.rank)
  reducesTo_S200000x8x64_S_d0_1_2 : S200000x8x64.ReducesTo [0, 1, 2] S_
  h_S_ : 0 < S_.numel
  bcast_S_S200000x8 : S_.BroadcastsInDim S200000x8 (![] : Fin 0 → Fin S200000x8.rank)
  reducesTo_S200000x8_S_d0_1 : S200000x8.ReducesTo [0, 1] S_
  bcast_S_S200000 : S_.BroadcastsInDim S200000 (![] : Fin 0 → Fin S200000.rank)
  reducesTo_S200000_S_d0 : S200000.ReducesTo [0] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S200000 .f32) (main_arg5 : FVec F S1 .f32) (main_v13 : IVec S_ 1) (main_v16 : IVec S200000x8 1) : IVec S_ 1 :=
  let main_c_5 : IVec S_ 1 := constantI S_ 1 1#1
  let main_v17 : IVec S_ 1 := (fun x v => Host.reduce IntOp.andi x v reducesTo_S200000x8_S_d0_1 h_S_) main_v16 main_c_5
  let main_v18 : IVec S_ 1 := andi main_v13 main_v17
  let main_v19 : FVec F S200000 .f32 := Host.absf main_arg4
  let main_cst_6 : FVec F S_ .f32 := constant S_ .f32 0x7F800000#32
  let main_v20 : FVec F S200000 .f32 := broadcastInDim S200000 ![] bcast_S_S200000 main_cst_6
  let main_v21 : IVec S200000 1 := cmpf .olt main_v19 main_v20
  let main_c_7 : IVec S_ 1 := constantI S_ 1 1#1
  let main_v22 : IVec S_ 1 := (fun x v => Host.reduce IntOp.andi x v reducesTo_S200000_S_d0 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S200000x8x64 .f32) (main_arg1 : FVec F S200000x8 .f32) (main_arg2 : FVec F S200000x8x64 .f32) (main_arg3 : FVec F S200000x8 .f32) (main_arg4 : FVec F S200000 .f32) (main_arg5 : FVec F S1 .f32) : IVec S_ 1 :=
  let main_v0 : FVec F S200000x8x64 .f32 := Host.absf main_arg0
  let main_cst : FVec F S_ .f32 := constant S_ .f32 0x7F800000#32
  let main_v1 : FVec F S200000x8x64 .f32 := broadcastInDim S200000x8x64 ![] bcast_S_S200000x8x64 main_cst
  let main_v2 : IVec S200000x8x64 1 := cmpf .olt main_v0 main_v1
  let main_c : IVec S_ 1 := constantI S_ 1 1#1
  let main_v3 : IVec S_ 1 := (fun x v => Host.reduce IntOp.andi x v reducesTo_S200000x8x64_S_d0_1_2 h_S_) main_v2 main_c
  let main_v4 : FVec F S200000x8 .f32 := Host.absf main_arg1
  let main_cst_0 : FVec F S_ .f32 := constant S_ .f32 0x7F800000#32
  let main_v5 : FVec F S200000x8 .f32 := broadcastInDim S200000x8 ![] bcast_S_S200000x8 main_cst_0
  let main_v6 : IVec S200000x8 1 := cmpf .olt main_v4 main_v5
  let main_c_1 : IVec S_ 1 := constantI S_ 1 1#1
  let main_v7 : IVec S_ 1 := (fun x v => Host.reduce IntOp.andi x v reducesTo_S200000x8_S_d0_1 h_S_) main_v6 main_c_1
  let main_v8 : IVec S_ 1 := andi main_v3 main_v7
  let main_v9 : FVec F S200000x8x64 .f32 := Host.absf main_arg2
  let main_cst_2 : FVec F S_ .f32 := constant S_ .f32 0x7F800000#32
  let main_v10 : FVec F S200000x8x64 .f32 := broadcastInDim S200000x8x64 ![] bcast_S_S200000x8x64 main_cst_2
  let main_v11 : IVec S200000x8x64 1 := cmpf .olt main_v9 main_v10
  let main_c_3 : IVec S_ 1 := constantI S_ 1 1#1
  let main_v12 : IVec S_ 1 := (fun x v => Host.reduce IntOp.andi x v reducesTo_S200000x8x64_S_d0_1_2 h_S_) main_v11 main_c_3
  let main_v13 : IVec S_ 1 := andi main_v8 main_v12
  let main_v14 : FVec F S200000x8 .f32 := Host.absf main_arg3
  let main_cst_4 : FVec F S_ .f32 := constant S_ .f32 0x7F800000#32
  let main_v15 : FVec F S200000x8 .f32 := broadcastInDim S200000x8 ![] bcast_S_S200000x8 main_cst_4
  let main_v16 : IVec S200000x8 1 := cmpf .olt main_v14 main_v15
  fn_part1 (F := F) main_arg4 main_arg5 main_v13 main_v16
-- ==== Kernel.lean ====
abbrev S200000x8x64 : Shape := ⟨3, ![200000, 8, 64]⟩
abbrev S200000x8 : Shape := ⟨2, ![200000, 8]⟩
abbrev S200000 : Shape := ⟨1, ![200000]⟩
abbrev S1 : Shape := ⟨1, ![1]⟩
abbrev S200000x1 : Shape := ⟨2, ![200000, 1]⟩
abbrev S1x1 : Shape := ⟨2, ![1, 1]⟩
abbrev S2000x8x64 : Shape := ⟨3, ![2000, 8, 64]⟩
abbrev S2000x8 : Shape := ⟨2, ![2000, 8]⟩
abbrev S2000x1 : Shape := ⟨2, ![2000, 1]⟩
abbrev S2000x8x1 : Shape := ⟨3, ![2000, 8, 1]⟩

abbrev nBuf : Space → Nat
  | .hbm => 9
  | .vmem => 13
  | .smem => 0
  | _ => 0

abbrev bufTy : (tb : Table) → Fin (tcTables nBuf tb) → BufTy
  | .hbm, ⟨0, _⟩ => ⟨S200000x8x64, .f32⟩
  | .hbm, ⟨1, _⟩ => ⟨S200000x8, .f32⟩
  | .hbm, ⟨2, _⟩ => ⟨S200000x8x64, .f32⟩
  | .hbm, ⟨3, _⟩ => ⟨S200000x8, .f32⟩
  | .hbm, ⟨4, _⟩ => ⟨S200000, .f32⟩
  | .hbm, ⟨5, _⟩ => ⟨S1, .f32⟩
  | .hbm, ⟨6, _⟩ => ⟨S200000x1, .f32⟩
  | .hbm, ⟨7, _⟩ => ⟨S1x1, .f32⟩
  | .hbm, ⟨8, _⟩ => ⟨S200000x8x64, .f32⟩
  | .local _ .vmem, ⟨0, _⟩ => ⟨S2000x8x64, .f32⟩
  | .local _ .vmem, ⟨1, _⟩ => ⟨S2000x8x64, .f32⟩
  | .local _ .vmem, ⟨2, _⟩ => ⟨S2000x8, .f32⟩
  | .local _ .vmem, ⟨3, _⟩ => ⟨S2000x8, .f32⟩
  | .local _ .vmem, ⟨4, _⟩ => ⟨S2000x8x64, .f32⟩
  | .local _ .vmem, ⟨5, _⟩ => ⟨S2000x8x64, .f32⟩
  | .local _ .vmem, ⟨6, _⟩ => ⟨S2000x8, .f32⟩
  | .local _ .vmem, ⟨7, _⟩ => ⟨S2000x8, .f32⟩
  | .local _ .vmem, ⟨8, _⟩ => ⟨S2000x1, .f32⟩
  | .local _ .vmem, ⟨9, _⟩ => ⟨S2000x1, .f32⟩
  | .local _ .vmem, ⟨10, _⟩ => ⟨S1x1, .f32⟩
  | .local _ .vmem, ⟨11, _⟩ => ⟨S2000x8x64, .f32⟩
  | .local _ .vmem, ⟨12, _⟩ => ⟨S2000x8x64, .f32⟩
  | _, _ => ⟨S200000x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![100], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2000x8x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x8x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x8x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S200000_S200000x1 : S200000.ShapeCasts S200000x1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S1x1_S2000x1 : S1x1.Broadcasts S2000x1
  inb_S2000x8_S2000x8_0_0 : ∀ a, (![0, 0] : Fin 2 → Nat) a + S2000x8.size a ≤ S2000x8.size a
  h_S2000x8 : 0 < S2000x8.numel
  broadcasts_S2000x1_S2000x8 : S2000x1.Broadcasts S2000x8
  shapeCasts_S2000x8_S2000x8x1 : S2000x8.ShapeCasts S2000x8x1
  inb_S2000x8x64_S2000x8x64_0_0_0 : ∀ a, (![0, 0, 0] : Fin 3 → Nat) a + S2000x8x64.size a ≤ S2000x8x64.size a
  h_S2000x8x64 : 0 < S2000x8x64.numel
  broadcasts_S2000x8x1_S2000x8x64 : S2000x8x1.Broadcasts S2000x8x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x8x64.size a ≤ S200000x8x64.size a
  hwx0_0 : ∀ i : grid0.Coords, EltTy.bits .f32 = 32 ∨ (Rect.block (s := S200000x8x64) S2000x8x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x8.size a ≤ S200000x8.size a
  hwx0_1 : ∀ i : grid0.Coords, EltTy.bits .f32 = 32 ∨ (Rect.block (s := S200000x8) S2000x8.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x8x64.size a ≤ S200000x8x64.size a
  hwx0_2 : ∀ i : grid0.Coords, EltTy.bits .f32 = 32 ∨ (Rect.block (s := S200000x8x64) S2000x8x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x8.size a ≤ S200000x8.size a
  hwx0_3 : ∀ i : grid0.Coords, EltTy.bits .f32 = 32 ∨ (Rect.block (s := S200000x8) S2000x8.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x1.size a ≤ S200000x1.size a
  hwx0_4 : ∀ i : grid0.Coords, EltTy.bits .f32 = 32 ∨ (Rect.block (s := S200000x1) S2000x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x8x64.size a ≤ S200000x8x64.size a
  hwx0_6 : ∀ i : grid0.Coords, EltTy.bits .f32 = 32 ∨ (Rect.block (s := S200000x8x64) S2000x8x64.size (cc0_transform_6 i) (hinb0_6 i)).WholeWords (EltTy.packing .f32)

variable [Facts₀]

abbrev win0_0 : Pipeline.Window sig grid0 :=
  Pipeline.Window.ofSpec (Memref.whole main_arg0) S2000x8x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2000x8x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2000x8.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S2000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S2000x8x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S200000x8x64 : Shape := ⟨3, ![200000, 8, 64]⟩
abbrev S200000x8 : Shape := ⟨2, ![200000, 8]⟩
abbrev S200000 : Shape := ⟨1, ![200000]⟩
abbrev S1 : Shape := ⟨1, ![1]⟩
abbrev S_ : Shape := ⟨0, ![]⟩
abbrev S200000x1 : Shape := ⟨2, ![200000, 1]⟩
abbrev S200000x8x1 : Shape := ⟨3, ![200000, 8, 1]⟩

abbrev nBuf : Space → Nat
  | .hbm => 74
  | .vmem => 0
  | .smem => 0
  | _ => 0

abbrev bufTy : (tb : Table) → Fin (tcTables nBuf tb) → BufTy
  | .hbm, ⟨0, _⟩ => ⟨S200000x8x64, .f32⟩
  | .hbm, ⟨1, _⟩ => ⟨S200000x8, .f32⟩
  | .hbm, ⟨2, _⟩ => ⟨S200000x8x64, .f32⟩
  | .hbm, ⟨3, _⟩ => ⟨S200000x8, .f32⟩
  | .hbm, ⟨4, _⟩ => ⟨S200000, .f32⟩
  | .hbm, ⟨5, _⟩ => ⟨S1, .f32⟩
  | .hbm, ⟨6, _⟩ => ⟨S200000, .f32⟩
  | .hbm, ⟨7, _⟩ => ⟨S200000, .f32⟩
  | .hbm, ⟨8, _⟩ => ⟨S_, .f32⟩
  | .hbm, ⟨9, _⟩ => ⟨S200000, .f32⟩
  | .hbm, ⟨10, _⟩ => ⟨S200000, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S200000, .f32⟩
  | .hbm, ⟨15, _⟩ => ⟨S200000, .f32⟩
  | .hbm, ⟨16, _⟩ => ⟨S_, .f32⟩
  | .hbm, ⟨17, _⟩ => ⟨S200000, .f32⟩
  | .hbm, ⟨18, _⟩ => ⟨S200000, .f32⟩
  | .hbm, ⟨19, _⟩ => ⟨S200000x1, .f32⟩
  | .hbm, ⟨20, _⟩ => ⟨S200000x8, .f32⟩
  | .hbm, ⟨21, _⟩ => ⟨S200000x8, .f32⟩
  | .hbm, ⟨22, _⟩ => ⟨S_, .f32⟩
  | .hbm, ⟨23, _⟩ => ⟨S200000x8, .i1⟩
  | .hbm, ⟨24, _⟩ => ⟨S_, .f32⟩
  | .hbm, ⟨25, _⟩ => ⟨S200000x8, .f32⟩
  | .hbm, ⟨26, _⟩ => ⟨S200000x8, .f32⟩
  | .hbm, ⟨27, _⟩ => ⟨S_, .f32⟩
  | .hbm, ⟨28, _⟩ => ⟨S200000x8, .f32⟩
  | .hbm, ⟨29, _⟩ => ⟨S200000x8, .i1⟩
  | .hbm, ⟨30, _⟩ => ⟨S_, .f32⟩
  | .hbm, ⟨31, _⟩ => ⟨S200000x8, .f32⟩
  | .hbm, ⟨32, _⟩ => ⟨S200000x8, .f32⟩
  | .hbm, ⟨33, _⟩ => ⟨S_, .f32⟩
  | .hbm, ⟨34, _⟩ => ⟨S200000x8, .f32⟩
  | .hbm, ⟨35, _⟩ => ⟨S200000x8, .i1⟩
  | .hbm, ⟨36, _⟩ => ⟨S_, .f32⟩
  | .hbm, ⟨37, _⟩ => ⟨S200000x8, .f32⟩
  | .hbm, ⟨38, _⟩ => ⟨S200000x8, .f32⟩
  | .hbm, ⟨39, _⟩ => ⟨S200000x8, .f32⟩
  | .hbm, ⟨40, _⟩ => ⟨S200000x8, .f32⟩
  | .hbm, ⟨41, _⟩ => ⟨S200000x8, .f32⟩
  | .hbm, ⟨42, _⟩ => ⟨S200000x8, .f32⟩
  | .hbm, ⟨43, _⟩ => ⟨S_, .f32⟩
  | .hbm, ⟨44, _⟩ => ⟨S200000x8, .i1⟩
  | .hbm, ⟨45, _⟩ => ⟨S_, .f32⟩
  | .hbm, ⟨46, _⟩ => ⟨S200000x8, .f32⟩
  | .hbm, ⟨47, _⟩ => ⟨S200000x8, .f32⟩
  | .hbm, ⟨48, _⟩ => ⟨S_, .f32⟩
  | .hbm, ⟨49, _⟩ => ⟨S200000x8, .f32⟩
  | .hbm, ⟨50, _⟩ => ⟨S200000x8, .i1⟩
  | .hbm, ⟨51, _⟩ => ⟨S_, .f32⟩
  | .hbm, ⟨52, _⟩ => ⟨S200000x8, .f32⟩
  | .hbm, ⟨53, _⟩ => ⟨S200000x8, .f32⟩
  | .hbm, ⟨54, _⟩ => ⟨S_, .f32⟩
  | .hbm, ⟨55, _⟩ => ⟨S200000x8, .f32⟩
  | .hbm, ⟨56, _⟩ => ⟨S200000x8, .i1⟩
  | .hbm, ⟨57, _⟩ => ⟨S_, .f32⟩
  | .hbm, ⟨58, _⟩ => ⟨S200000x8, .f32⟩
  | .hbm, ⟨59, _⟩ => ⟨S200000x8, .f32⟩
  | .hbm, ⟨60, _⟩ => ⟨S200000x8, .f32⟩
  | .hbm, ⟨61, _⟩ => ⟨S200000x8, .f32⟩
  | .hbm, ⟨62, _⟩ => ⟨S_, .f32⟩
  | .hbm, ⟨63, _⟩ => ⟨S200000x8, .f32⟩
  | .hbm, ⟨64, _⟩ => ⟨S200000x8, .f32⟩
  | .hbm, ⟨65, _⟩ => ⟨S200000x8, .f32⟩
  | .hbm, ⟨66, _⟩ => ⟨S200000x8x1, .f32⟩
  | .hbm, ⟨67, _⟩ => ⟨S200000x8, .f32⟩
  | .hbm, ⟨68, _⟩ => ⟨S200000x8x1, .f32⟩
  | .hbm, ⟨69, _⟩ => ⟨S200000x8x64, .f32⟩
  | .hbm, ⟨70, _⟩ => ⟨S200000x8x64, .f32⟩
  | .hbm, ⟨71, _⟩ => ⟨S200000x8x64, .f32⟩
  | .hbm, ⟨72, _⟩ => ⟨S200000x8x64, .f32⟩
  | .hbm, ⟨73, _⟩ => ⟨S200000x8x64, .f32⟩
  | _, _ => ⟨S200000x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_cst_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_2 : Ref sig .tc := ⟨.hbm, 22, rfl⟩
abbrev main_call1_v0 : Ref sig .tc := ⟨.hbm, 23, rfl⟩
abbrev main_call1_v1 : Ref sig .tc := ⟨.hbm, 24, rfl⟩
abbrev main_call1_call0_v0 : Ref sig .tc := ⟨.hbm, 25, rfl⟩
abbrev main_call1_v2 : Ref sig .tc := ⟨.hbm, 26, rfl⟩
abbrev main_call1_cst : Ref sig .tc := ⟨.hbm, 27, rfl⟩
abbrev main_call1_v3 : Ref sig .tc := ⟨.hbm, 28, rfl⟩
abbrev main_call1_v4 : Ref sig .tc := ⟨.hbm, 29, rfl⟩
abbrev main_call1_cst_0 : Ref sig .tc := ⟨.hbm, 30, rfl⟩
abbrev main_call1_call1_v0 : Ref sig .tc := ⟨.hbm, 31, rfl⟩
abbrev main_call1_v5 : Ref sig .tc := ⟨.hbm, 32, rfl⟩
abbrev main_call1_cst_1 : Ref sig .tc := ⟨.hbm, 33, rfl⟩
abbrev main_call1_v6 : Ref sig .tc := ⟨.hbm, 34, rfl⟩
abbrev main_call1_v7 : Ref sig .tc := ⟨.hbm, 35, rfl⟩
abbrev main_call1_cst_2 : Ref sig .tc := ⟨.hbm, 36, rfl⟩
abbrev main_call1_call2_v0 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_cst_3 : Ref sig .tc := ⟨.hbm, 43, rfl⟩
abbrev main_call2_v0 : Ref sig .tc := ⟨.hbm, 44, rfl⟩
abbrev main_call2_v1 : Ref sig .tc := ⟨.hbm, 45, rfl⟩
abbrev main_call2_call0_v0 : Ref sig .tc := ⟨.hbm, 46, rfl⟩
abbrev main_call2_v2 : Ref sig .tc := ⟨.hbm, 47, rfl⟩
abbrev main_call2_cst : Ref sig .tc := ⟨.hbm, 48, rfl⟩
abbrev main_call2_v3 : Ref sig .tc := ⟨.hbm, 49, rfl⟩
abbrev main_call2_v4 : Ref sig .tc := ⟨.hbm, 50, rfl⟩
abbrev main_call2_cst_0 : Ref sig .tc := ⟨.hbm, 51, rfl⟩
abbrev main_call2_call1_v0 : Ref sig .tc := ⟨.hbm, 52, rfl⟩
abbrev main_call2_v5 : Ref sig .tc := ⟨.hbm, 53, rfl⟩
abbrev main_call2_cst_1 : Ref sig .tc := ⟨.hbm, 54, rfl⟩
abbrev main_call2_v6 : Ref sig .tc := ⟨.hbm, 55, rfl⟩
abbrev main_call2_v7 : Ref sig .tc := ⟨.hbm, 56, rfl⟩
abbrev main_call2_cst_2 : Ref sig .tc := ⟨.hbm, 57, rfl⟩
abbrev main_call2_call2_v0 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_cst_4 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩

abbrev nD : Nat := 1
abbrev τ : Topo := Topo.v7x

variable {F : FTy → Type} [FloatOps F]

class Facts₀ : Prop where
  bcast_S1_S200000_0 : S1.BroadcastsInDim S200000 (![0] : Fin 1 → Fin S200000.rank)
  bcast_S_S200000 : S_.BroadcastsInDim S200000 (![] : Fin 0 → Fin S200000.rank)
  bcast_S200000_S200000x1_0 : S200000.BroadcastsInDim S200000x1 (![0] : Fin 1 → Fin S200000x1.rank)
  bcast_S_S200000x8 : S_.BroadcastsInDim S200000x8 (![] : Fin 0 → Fin S200000x8.rank)
  bcast_S200000x1_S200000x8_0_1 : S200000x1.BroadcastsInDim S200000x8 (![0, 1] : Fin 2 → Fin S200000x8.rank)
  bcast_S200000x8_S200000x8x1_0_1 : S200000x8.BroadcastsInDim S200000x8x1 (![0, 1] : Fin 2 → Fin S200000x8x1.rank)
  bcast_S200000x8x1_S200000x8x64_0_1_2 : S200000x8x1.BroadcastsInDim S200000x8x64 (![0, 1, 2] : Fin 3 → Fin S200000x8x64.rank)

variable [Facts₀]

class Facts : Prop extends Facts₀ where

variable [Facts]
-- ==== Proof.Spec.lean ====
/-
  The online EMA merge with log-sum-exp stabilization, as ONE scalar function of six entries.

  For a row n, a head h and a lane d, with  x = x[n,h,d], hx = his_x[n,h,d], a = max_a[n,h], m = his_m[n,h],
  g = agg_n[n], w = inv_w[0]:
      β   = min 1 (max 0 (1 - w·g))                       the decay, clamped to [0, 1]
      M   = max a m
      p   = exp (clean (m - M)) · β                       the weight of the history
      q   = exp (clean (a - M))                           the weight of the new value
      t   = max (p + q) 1
      out = hx · (p / t) + x · (q / t)
  where  clean v  replaces "not a number" by -∞, then +∞ by the largest finite f32 and -∞ by the smallest
  (jnp.nan_to_num with nan = -∞).

  The kernel and the reference spell three of these operations differently — the test "v ≠ v" (ordered in the
  kernel, unordered on the host), the exponential and the quotient (a vector-unit operation in the kernel, a
  host operation in the reference) —, so the function takes those three as parameters; over the extended reals
  the two spellings are the same functions (no number differs from itself; one exponential; one quotient).
-/
import Idealize.ShloMosaic.PureOps.Ideal
import Idealize.ShloMosaic.Lib.ValueIdx

noncomputable section

namespace Cert.Emma

open Idealize.ShloMosaic Idealize.ShloMosaic.ValueIdx

variable {F : FTy → Type} [FloatOps F]

/-- The decay β = min 1 (max 0 (1 - w·g)). -/
def decay (w g : F .f32) : F .f32 :=
  FloatOps.minimumf (FloatOps.ofBits .f32 0x3F800000#32)
    (FloatOps.maximumf (FloatOps.ofBits .f32 0x00000000#32)
      (FloatOps.subf (FloatOps.ofBits .f32 0x3F800000#32) (FloatOps.mulf w g)))

/-- First step of `clean`: a value that differs from itself becomes -∞. -/
def cleanNan (ne : CmpFPredicate) (v : F .f32) : F .f32 :=
  Scalar.select (FloatOps.cmpf ne v v) (FloatOps.ofBits .f32 0xFF800000#32) v

/-- Second step: +∞ becomes the largest finite f32. -/
def cleanPos (ne : CmpFPredicate) (v : F .f32) : F .f32 :=
  Scalar.select (FloatOps.cmpf .oeq (cleanNan ne v) (FloatOps.ofBits .f32 0x7F800000#32))
    (FloatOps.ofBits .f32 0x7F7FFFFF#32) (cleanNan ne v)

/-- Third step: -∞ becomes the smallest finite f32. -/
def clean (ne : CmpFPredicate) (v : F .f32) : F .f32 :=
  Scalar.select (FloatOps.cmpf .oeq (cleanPos ne v) (FloatOps.ofBits .f32 0xFF800000#32))
    (FloatOps.ofBits .f32 0xFF7FFFFF#32) (cleanPos ne v)

/-- p = exp (clean (m - max a m)) · β: the history's weight before normalization. -/
def wOld (ne : CmpFPredicate) (ex : F .f32 → F .f32) (a m g w : F .f32) : F .f32 :=
  FloatOps.mulf (ex (clean ne (FloatOps.subf m (FloatOps.maximumf a m)))) (decay w g)

/-- q = exp (clean (a - max a m)): the new value's weight before normalization. -/
def wNew (ne : CmpFPredicate) (ex : F .f32 → F .f32) (a m : F .f32) : F .f32 :=
  ex (clean ne (FloatOps.subf a (FloatOps.maximumf a m)))

/-- t = max (p + q) 1. -/
def norm (ne : CmpFPredicate) (ex : F .f32 → F .f32) (a m g w : F .f32) : F .f32 :=
  FloatOps.maximumf (FloatOps.addf (wOld ne ex a m g w) (wNew ne ex a m)) (FloatOps.ofBits .f32 0x3F800000#32)

/-- out = hx · (p / t) + x · (q / t). -/
def mix (ne : CmpFPredicate) (ex : F .f32 → F .f32) (dv : F .f32 → F .f32 → F .f32) (x hx a m g w : F .f32) : F .f32 :=
  FloatOps.addf (FloatOps.mulf hx (dv (wOld ne ex a m g w) (norm ne ex a m g w)))
    (FloatOps.mulf x (dv (wNew ne ex a m) (norm ne ex a m g w)))

/-- The kernel's spelling. -/
def mixK (x hx a m g w : F .f32) : F .f32 := mix .one FloatOps.exp FloatOps.divf x hx a m g w

/-- The host's spelling. -/
def mixH (x hx a m g w : F .f32) : F .f32 := mix .une (FloatOps.hostUnary .exp) FloatOps.hostDivf x hx a m g w

/-- Over the extended reals the two spellings are one function: "v ≠ v" is the same test ordered or unordered,
    the host's exponential and quotient are the vector unit's. -/
theorem mixH_eq_mixK (x hx a m g w : Ideal .f32) : mixH x hx a m g w = mixK x hx a m g w := rfl

/-! ## The result array -/

abbrev SX : Shape := ⟨3, ![200000, 8, 64]⟩
abbrev SM : Shape := ⟨2, ![200000, 8]⟩
abbrev SA : Shape := ⟨1, ![200000]⟩
abbrev SW : Shape := ⟨1, ![1]⟩

/-- Entry (n, h, d) of the result: the merge of x[n,h,d], his_x[n,h,d], max_a[n,h], his_m[n,h], agg_n[n], inv_w[0],
    in the spelling `mx`. -/
def G (mx : F .f32 → F .f32 → F .f32 → F .f32 → F .f32 → F .f32 → F .f32)
    (x : SX.Idx → Elt F .f32) (a : SM.Idx → Elt F .f32) (hx : SX.Idx → Elt F .f32) (m : SM.Idx → Elt F .f32)
    (g : SA.Idx → Elt F .f32) (w : SW.Idx → Elt F .f32) : SX.Idx → Elt F .f32 :=
  fun i => mx (x i) (hx i) (a (ix2 (i 0) (i 1))) (m (ix2 (i 0) (i 1))) (g (ix1 (i 0))) (w (ix1 (0 : Fin 1)))

end Cert.Emma

end
-- ==== Proof.KPayload.lean ====
/-
  What the kernel body leaves in its output block, entry by entry.

  The body stores one value, `his_x · (p/t) + x · (q/t)`, where p, q and t are computed on the [2000, 8] blocks of
  max_a and his_m and on the [2000, 1] block of agg_n, and are then laid along the 64 lanes: a column [2000, 1] is
  broadcast over the 8 heads, a [2000, 8] value is given a unit axis and broadcast over the 64 lanes. Read at
  (r, h, d) each of these re-layings reads its operand at (r, 0), (0, 0) or (r, h); everything else in the body is
  entry by entry. So entry (r, h, d) of the stored block is the scalar merge `mixK` of the six blocks' entries at
  (r, h, d), (r, h), (r, 0) and (0, 0).
-/
import proofs.«161238_j15152644620653_1_alg».proof.Proof.Gen.KernelIdeal.Frame
import proofs.«161238_j15152644620653_1_alg».proof.Proof.Spec
import Idealize.ShloMosaic.Lib.Pipeline.Value
import Idealize.ShloMosaic.Lib.ValueIdx

noncomputable section

namespace Cert.Emma.Body

open Cert.KernelIdeal Cert.KernelIdeal.Gen Idealize.ShloMosaic Idealize.ShloMosaic.ValueIdx Cert.Emma

variable {F : FTy → Type} [FloatOps F]

/-! ## The three re-layings read at an index -/

/-- A column broadcast over the heads reads its row. -/
theorem bcast_col (u : FVec F S2000x1 .f32) (r : Fin 2000) (h : Fin 8) :
    broadcastTo S2000x8 u broadcasts_S2000x1_S2000x8 (ix2 r h) = u (ix2 r (0 : Fin 1)) :=
  broadcastTo_apply u _ _ _ (fun a => match a with | ⟨0, _⟩ => rfl | ⟨1, _⟩ => rfl)

/-- The one-entry block broadcast down a column reads its entry. -/
theorem bcast_one (u : FVec F S1x1 .f32) (r : Fin 2000) (z : Fin 1) :
    broadcastTo S2000x1 u broadcasts_S1x1_S2000x1 (ix2 r z) = u (ix2 (0 : Fin 1) (0 : Fin 1)) :=
  broadcastTo_apply u _ _ _ (fun a => match a with | ⟨0, _⟩ => rfl | ⟨1, _⟩ => rfl)

/-- A [2000, 8] value given a unit axis and broadcast over the lanes reads its (row, head) entry. -/
theorem bcast_lanes (u : FVec F S2000x8 .f32) (r : Fin 2000) (h : Fin 8) (d : Fin 64) :
    broadcastTo S2000x8x64 (shapeCast S2000x8x1 u shapeCasts_S2000x8_S2000x8x1) broadcasts_S2000x8x1_S2000x8x64 (ix3 r h d)
      = u (ix2 r h) := by
  refine (broadcastTo_apply _ _ _ (ix3 r h (0 : Fin 1)) (fun a => match a with | ⟨0, _⟩ => rfl | ⟨1, _⟩ => rfl | ⟨2, _⟩ => rfl)).trans ?_
  refine shapeCast_apply u _ _ (ix2 r h) ?_
  rw [Shape.rowMajor_val_two, Shape.rowMajor_val_three]
  show r.val * 8 + h.val = (r.val * 8 + h.val) * 1 + 0
  omega

/-! ## The payloads, with their re-layings still in place -/

/-- The decay on the [2000, 1] block, from the one-entry block of inv_w and the column of agg_n. -/
def decayCol (v0 : Vec F S1x1 .f32) (v2 : Vec F S2000x1 .f32) : FVec F S2000x1 .f32 :=
  fun j => decay (broadcastTo S2000x1 (shapeCast S1x1 v0 shapeCasts_S1x1_S1x1) broadcasts_S1x1_S2000x1 j)
    (shapeCast S2000x1 v2 shapeCasts_S2000x1_S2000x1 j)

/-- The history's weight p on the [2000, 8] block: entry by entry but for the decay's broadcast. -/
theorem pay3_eq (v0 : Vec F S1x1 .f32) (v2 : Vec F S2000x1 .f32) (v12 v13 : Vec F S2000x8 .f32) (k : S2000x8.Idx) :
    k0_pay3 v0 v2 v12 v13 k
      = FloatOps.mulf (FloatOps.exp (clean .one (FloatOps.subf (v13 k) (FloatOps.maximumf (v12 k) (v13 k)))))
          (broadcastTo S2000x8 (decayCol v0 v2) broadcasts_S2000x1_S2000x8 k) := rfl

/-- p at (r, h). -/
theorem pay3_apply (v0 : Vec F S1x1 .f32) (v2 : Vec F S2000x1 .f32) (v12 v13 : Vec F S2000x8 .f32) (r : Fin 2000) (h : Fin 8) :
    k0_pay3 v0 v2 v12 v13 (ix2 r h)
      = wOld .one FloatOps.exp (v12 (ix2 r h)) (v13 (ix2 r h)) (v2 (ix2 r (0 : Fin 1))) (v0 (ix2 (0 : Fin 1) (0 : Fin 1))) := by
  rw [pay3_eq, bcast_col]
  unfold decayCol
  rw [bcast_one, shapeCast_self, shapeCast_self]
  rfl

/-- The new value's exponent after the first two cleaning steps, entry by entry. -/
theorem pay4_apply (v12 v13 : Vec F S2000x8 .f32) (k : S2000x8.Idx) :
    k0_pay4 v12 v13 k = cleanPos .one (FloatOps.subf (v12 k) (FloatOps.maximumf (v12 k) (v13 k))) := rfl

/-- The -∞ the third cleaning step compares with. -/
theorem pay5_apply (k : S2000x8.Idx) : k0_pay5 (F := F) k = FloatOps.ofBits .f32 0xFF800000#32 := rfl

/-- The new value's weight q from the second payload's value and the -∞ splat. -/
def qBlk (v37 v38 : FVec F S2000x8 .f32) : FVec F S2000x8 .f32 :=
  fun k => FloatOps.exp (Scalar.select (FloatOps.cmpf .oeq (v37 k) (v38 k)) (FloatOps.ofBits .f32 0xFF7FFFFF#32) (v37 k))

/-- The normalizer t = max (p + q) 1. -/
def tBlk (v29 v37 v38 : FVec F S2000x8 .f32) : FVec F S2000x8 .f32 :=
  fun k => FloatOps.maximumf (FloatOps.addf (v29 k) (qBlk v37 v38 k)) (FloatOps.ofBits .f32 0x3F800000#32)

/-- The stored value: entry by entry but for the two quotients' broadcasts over the lanes. -/
theorem pay1_eq (v29 v37 v38 : FVec F S2000x8 .f32) (v50 v53 : Vec F S2000x8x64 .f32) (i : S2000x8x64.Idx) :
    k0_pay1 v29 v37 v38 v50 v53 i
      = FloatOps.addf
          (FloatOps.mulf (v50 i) (broadcastTo S2000x8x64 (shapeCast S2000x8x1 (fun k => FloatOps.divf (v29 k) (tBlk v29 v37 v38 k)) shapeCasts_S2000x8_S2000x8x1) broadcasts_S2000x8x1_S2000x8x64 i))
          (FloatOps.mulf (v53 i) (broadcastTo S2000x8x64 (shapeCast S2000x8x1 (fun k => FloatOps.divf (qBlk v37 v38 k) (tBlk v29 v37 v38 k)) shapeCasts_S2000x8_S2000x8x1) broadcasts_S2000x8x1_S2000x8x64 i)) := rfl

/-! ## The output block -/

theorem hz2 : (![0, 0] : Fin 2 → Nat) = fun _ => 0 := funext fun a => by fin_cases a <;> rfl
theorem hz3 : (![0, 0, 0] : Fin 3 → Nat) = fun _ => 0 := funext fun a => by fin_cases a <;> rfl

/-- ENTRY (r, h, d) OF THE BLOCK THE BODY LEAVES is the merge of the six input blocks' entries: x and his_x at (r, h, d),
    max_a and his_m at (r, h), agg_n at (r, 0), inv_w at (0, 0). -/
theorem out_apply (x0 : Vec F S2000x8x64 .f32) (x1 : Vec F S2000x8 .f32) (x2 : Vec F S2000x8x64 .f32) (x3 : Vec F S2000x8 .f32)
    (x4 : Vec F S2000x1 .f32) (x5 : Vec F S1x1 .f32) (r : Fin 2000) (h : Fin 8) (d : Fin 64) :
    out0_6 x0 x1 x2 x3 x4 x5 (ix3 r h d)
      = mixK (x0 (ix3 r h d)) (x2 (ix3 r h d)) (x1 (ix2 r h)) (x3 (ix2 r h)) (x4 (ix2 r (0 : Fin 1))) (x5 (ix2 (0 : Fin 1) (0 : Fin 1))) := by
  unfold out0_6
  rw [View.canon_unit_zero hz3]
  simp only [View.ld_unit_zero (S := S2000x8x64) hz3, View.ld_unit_zero (S := S2000x8) hz2,
    View.ld_unit_zero (S := S2000x1) hz2, View.ld_unit_zero (S := S1x1) hz2]
  rw [pay1_eq, bcast_lanes, bcast_lanes]
  unfold tBlk qBlk
  simp only [pay3_apply, pay4_apply, pay5_apply]
  rfl

end Cert.Emma.Body

end
-- ==== Proof.KFinal.lean ====
/-
  From the blocks to the array: what the kernel's run leaves in its result.

  The grid has 100 points; point t fetches rows 2000·t … 2000·t + 1999 of x, max_a, his_x, his_m and of agg_n (as a
  column), keeps the one entry of inv_w, and writes back rows 2000·t … of the result. Entry (r, h, d) of the block it
  writes is the merge of the fetched blocks' entries (the body's value, read entry by entry), and those are the
  arguments' entries at row 2000·t + r: so what point t writes back is block t of the array
  `G mixK x max_a his_x his_m agg_n inv_w`. The 100 blocks tile the result (row n lies in block n / 2000), so the run ends
  with the result buffer holding that array.
-/
import proofs.«161238_j15152644620653_1_alg».proof.Proof.KernelBlocks
import proofs.«161238_j15152644620653_1_alg».proof.Proof.KPayload
import Idealize.ShloMosaic.Lib.StableHlo.Run

noncomputable section

namespace Cert.Emma.Kernel

open Cert.KernelIdeal Cert.KernelIdeal.Gen Cert.KernelIdeal.ValueP Idealize.ShloMosaic Idealize.ShloMosaic.TcCoe Idealize.SL.Sem
  Idealize.ShloMosaic.ValueIdx Cert.Emma Cert.Emma.Body
open Idealize.ShloMosaic.Pipeline (Dat)

variable {F : FTy → Type} [FloatOps F]
variable (m : (ℓ : Loc nD τ sig) → Buf (Elt F) ℓ) (ρ : Dev nD → PrngReg)

/-! ## The body's block, at any index -/

/-- Entry y of the block the body leaves, for an index given whole. -/
theorem out_entry (x0 : Vec F S2000x8x64 .f32) (x1 : Vec F S2000x8 .f32) (x2 : Vec F S2000x8x64 .f32) (x3 : Vec F S2000x8 .f32)
    (x4 : Vec F S2000x1 .f32) (x5 : Vec F S1x1 .f32) (y : S2000x8x64.Idx) :
    out0_6 x0 x1 x2 x3 x4 x5 y
      = mixK (x0 y) (x2 y) (x1 (ix2 (y 0) (y 1))) (x3 (ix2 (y 0) (y 1))) (x4 (ix2 (y 0) (0 : Fin 1))) (x5 (ix2 (0 : Fin 1) (0 : Fin 1))) := by
  obtain ⟨r, h, d, rfl⟩ : ∃ (r : Fin 2000) (h : Fin 8) (d : Fin 64), y = ix3 r h d := ⟨y 0, y 1, y 2, eq_ix3 y⟩
  exact out_apply x0 x1 x2 x3 x4 x5 r h d

/-! ## The two arrays the host reshapes before the launch -/

/-- The column the kernel's fifth window stages is agg_n with a unit axis. -/
theorem V_col (c : Dev nD) : (V m c main_v0 : S200000x1.Idx → Elt F .f32) = shapeCast S200000x1 (m ((c : Thread nD τ).loc main_arg4)) shapeCasts_S200000_S200000x1 := by
  dsimp only [V, hostOps0]; after_results; rfl

/-- The one-entry block its sixth window stages is inv_w with a unit axis. -/
theorem V_one (c : Dev nD) : (V m c main_v1 : S1x1.Idx → Elt F .f32) = shapeCast S1x1 (m ((c : Thread nD τ).loc main_arg5)) shapeCasts_S1_S1x1 := by
  dsimp only [V, hostOps0]; after_results; rfl

/-! ## The index maps, decided over the grid -/

/-- Every window that moves follows the grid coordinate on its leading axis and stays at 0 on the others; inv_w's stays put. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 3) = t.val ∧ win0_2.index t (1 : Fin 3) = 0 ∧ win0_2.index t (2 : Fin 3) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 3) = t.val ∧ win0_6.index t (1 : Fin 3) = 0 ∧ win0_6.index t (2 : Fin 3) = 0 :=
  (by decide +kernel : ∀ t : Fin grid0.N, _)

/-! ## What a point writes back -/

/-- WHAT POINT t WRITES BACK is block t of the merged array of the arguments as the region finds them. -/
theorem flushed_eq (c : Dev nD) (t : Fin cfg0.N) :
    (dats m 0 c).flushed 6 t = ((cfg0.win 6).blk t).view.read (Elt F)
      (G mixK (V m c main_arg0) (V m c main_arg1) (V m c main_arg2) (V m c main_arg3) (m ((c : Thread nD τ).loc main_arg4)) (m ((c : Thread nD τ).loc main_arg5))) := by
  rw [flushed6]
  obtain ⟨f00, f01, f02, f10, f11, f20, f21, f22, f30, f31, f40, f41, f50, f51, f60, f61, f62⟩ := idx_facts t
  funext j
  refine (out_entry (iblk m c 0 t) (iblk m c 1 t) (iblk m c 2 t) (iblk m c 3 t) (iblk m c 4 t) (iblk m c 5 t)
    ((cfg0.win 6).xinj (grid0.coords t) j)).trans ?_
  -- the two [2000, 8, 64] blocks are read where the output's block lies
  have e0 : iblk m c 0 t ((cfg0.win 6).xinj (grid0.coords t) j) = V m c main_arg0 (((cfg0.win 6).blk t).view.emb j) := by
    show V m c main_arg0 (((cfg0.win 0).blk t).view.emb ((cfg0.win 6).xinj (grid0.coords t) j)) = _
    refine congrArg (V m c main_arg0) (funext fun a => Fin.ext ?_)
    match a with
    | ⟨0, _⟩ => show win0_0.index t (0 : Fin 3) * 2000 + 1 * (j 0).val = win0_6.index t (0 : Fin 3) * 2000 + 1 * (j 0).val; omega
    | ⟨1, _⟩ => show win0_0.index t (1 : Fin 3) * 8 + 1 * (j 1).val = win0_6.index t (1 : Fin 3) * 8 + 1 * (j 1).val; omega
    | ⟨2, _⟩ => show win0_0.index t (2 : Fin 3) * 64 + 1 * (j 2).val = win0_6.index t (2 : Fin 3) * 64 + 1 * (j 2).val; omega
  have e2 : iblk m c 2 t ((cfg0.win 6).xinj (grid0.coords t) j) = V m c main_arg2 (((cfg0.win 6).blk t).view.emb j) := by
    show V m c main_arg2 (((cfg0.win 2).blk t).view.emb ((cfg0.win 6).xinj (grid0.coords t) j)) = _
    refine congrArg (V m c main_arg2) (funext fun a => Fin.ext ?_)
    match a with
    | ⟨0, _⟩ => show win0_2.index t (0 : Fin 3) * 2000 + 1 * (j 0).val = win0_6.index t (0 : Fin 3) * 2000 + 1 * (j 0).val; omega
    | ⟨1, _⟩ => show win0_2.index t (1 : Fin 3) * 8 + 1 * (j 1).val = win0_6.index t (1 : Fin 3) * 8 + 1 * (j 1).val; omega
    | ⟨2, _⟩ => show win0_2.index t (2 : Fin 3) * 64 + 1 * (j 2).val = win0_6.index t (2 : Fin 3) * 64 + 1 * (j 2).val; omega
  -- the two [2000, 8] blocks at the same row and head
  have e1 : iblk m c 1 t (ix2 (((cfg0.win 6).xinj (grid0.coords t) j) 0) (((cfg0.win 6).xinj (grid0.coords t) j) 1)) = V m c main_arg1 (ix2 ((((cfg0.win 6).blk t).view.emb j) 0) ((((cfg0.win 6).blk t).view.emb j) 1)) := by
    show V m c main_arg1 (((cfg0.win 1).blk t).view.emb (ix2 (((cfg0.win 6).xinj (grid0.coords t) j) 0) (((cfg0.win 6).xinj (grid0.coords t) j) 1))) = _
    refine congrArg (V m c main_arg1) (funext fun a => Fin.ext ?_)
    match a with
    | ⟨0, _⟩ => show win0_1.index t (0 : Fin 2) * 2000 + 1 * (j 0).val = win0_6.index t (0 : Fin 3) * 2000 + 1 * (j 0).val; omega
    | ⟨1, _⟩ => show win0_1.index t (1 : Fin 2) * 8 + 1 * (j 1).val = win0_6.index t (1 : Fin 3) * 8 + 1 * (j 1).val; omega
  have e3 : iblk m c 3 t (ix2 (((cfg0.win 6).xinj (grid0.coords t) j) 0) (((cfg0.win 6).xinj (grid0.coords t) j) 1)) = V m c main_arg3 (ix2 ((((cfg0.win 6).blk t).view.emb j) 0) ((((cfg0.win 6).blk t).view.emb j) 1)) := by
    show V m c main_arg3 (((cfg0.win 3).blk t).view.emb (ix2 (((cfg0.win 6).xinj (grid0.coords t) j) 0) (((cfg0.win 6).xinj (grid0.coords t) j) 1))) = _
    refine congrArg (V m c main_arg3) (funext fun a => Fin.ext ?_)
    match a with
    | ⟨0, _⟩ => show win0_3.index t (0 : Fin 2) * 2000 + 1 * (j 0).val = win0_6.index t (0 : Fin 3) * 2000 + 1 * (j 0).val; omega
    | ⟨1, _⟩ => show win0_3.index t (1 : Fin 2) * 8 + 1 * (j 1).val = win0_6.index t (1 : Fin 3) * 8 + 1 * (j 1).val; omega
  -- the column of agg_n at the same row, through the host's reshape
  have e4 : iblk m c 4 t (ix2 (((cfg0.win 6).xinj (grid0.coords t) j) 0) (0 : Fin 1)) = (m ((c : Thread nD τ).loc main_arg4)) (ix1 ((((cfg0.win 6).blk t).view.emb j) 0)) := by
    show V m c main_v0 (((cfg0.win 4).blk t).view.emb (ix2 (((cfg0.win 6).xinj (grid0.coords t) j) 0) (0 : Fin 1))) = _
    rw [V_col]
    refine shapeCast_apply _ _ _ (ix1 ((((cfg0.win 6).blk t).view.emb j) 0)) ?_
    rw [Shape.rowMajor_val_one, Shape.rowMajor_val_two]
    show win0_6.index t (0 : Fin 3) * 2000 + 1 * (j 0).val
      = (win0_4.index t (0 : Fin 2) * 2000 + 1 * (j 0).val) * 1 + (win0_4.index t (1 : Fin 2) * 1 + 1 * 0)
    omega
  -- inv_w's entry, through the host's reshape
  have e5 : iblk m c 5 t (ix2 (0 : Fin 1) (0 : Fin 1)) = (m ((c : Thread nD τ).loc main_arg5)) (ix1 (0 : Fin 1)) := by
    show V m c main_v1 (((cfg0.win 5).blk t).view.emb (ix2 (0 : Fin 1) (0 : Fin 1))) = _
    rw [V_one]
    refine shapeCast_apply _ _ _ (ix1 (0 : Fin 1)) ?_
    rw [Shape.rowMajor_val_one, Shape.rowMajor_val_two]
    show 0 = (win0_5.index t (0 : Fin 2) * 1 + 1 * 0) * 1 + (win0_5.index t (1 : Fin 2) * 1 + 1 * 0)
    omega
  rw [e0, e2, e1, e3, e4, e5]
  rfl

/-! ## The blocks tile the result -/

/-- An index of the result is in point t's block iff each coordinate is in the block's range on its axis. -/
theorem mem_blk (t : Fin cfg0.N) (i : S200000x8x64.Idx) :
    i ∈ ((cfg0.win 6).blk t).view.set ↔ ∀ a : Fin 3, win0_6.index t a * S2000x8x64.size a ≤ (i a).val ∧ (i a).val < win0_6.index t a * S2000x8x64.size a + S2000x8x64.size a := by
  show i ∈ ((View.whole main_v2).slice (win0_6.rect t)).set ↔ _
  rw [View.set_slice_whole, Rect.mem_set_unit]
  exact Iff.rfl

/-- Row n of the result lies in the block of point n / 2000, which writes back. -/
theorem cover (i : S200000x8x64.Idx) : ∃ t : Fin cfg0.N, (cfg0.win 6).flush t = true ∧ i ∈ ((cfg0.win 6).blk t).view.set := by
  have hi0 : (i 0).val < 200000 := (i 0).isLt
  have hi1 : (i 1).val < 8 := (i 1).isLt
  have hi2 : (i 2).val < 64 := (i 2).isLt
  have hq : (i 0).val / 2000 < 100 := by omega
  refine ⟨⟨(i 0).val / 2000, hq⟩, flush0_6 _, ?_⟩
  obtain ⟨f00, f01, f02, f10, f11, f20, f21, f22, f30, f31, f40, f41, f50, f51, f60, f61, f62⟩ := idx_facts ⟨(i 0).val / 2000, hq⟩
  have g60 : win0_6.index ⟨(i 0).val / 2000, hq⟩ (0 : Fin 3) = (i 0).val / 2000 := f60
  rw [mem_blk]
  intro a
  match a with
  | ⟨0, _⟩ => show win0_6.index ⟨(i 0).val / 2000, hq⟩ (0 : Fin 3) * 2000 ≤ (i 0).val ∧ (i 0).val < win0_6.index ⟨(i 0).val / 2000, hq⟩ (0 : Fin 3) * 2000 + 2000; omega
  | ⟨1, _⟩ => show win0_6.index ⟨(i 0).val / 2000, hq⟩ (1 : Fin 3) * 8 ≤ (i 1).val ∧ (i 1).val < win0_6.index ⟨(i 0).val / 2000, hq⟩ (1 : Fin 3) * 8 + 8; omega
  | ⟨2, _⟩ => show win0_6.index ⟨(i 0).val / 2000, hq⟩ (2 : Fin 3) * 64 ≤ (i 2).val ∧ (i 2).val < win0_6.index ⟨(i 0).val / 2000, hq⟩ (2 : Fin 3) * 64 + 64; omega

/-! ## The result after the run -/

/-- THE RESULT ARRAY after the run is the merged array of the arguments as launched. -/
theorem final (c : Dev nD) :
    (dats m 0 c).arrAt 6 cfg0.N = G mixK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have h := (dats m 0 c).arrAt_eq_of_cover 6 _ (fun t _ => flushed_eq m c t) cover
  rw [V_main_arg0, V_main_arg1, V_main_arg2, V_main_arg3] at h
  exact h

/-- Every weakly fair execution of the idealized kernel terminates with its result at the merged array of the arguments,
    the arguments unchanged. -/
theorem run : θ_run defs (onTc (τ := τ) (main (F := F))) ⟨m, fun _ => 0, ρ⟩ fun r => ∀ c : Dev nD,
      r.2.mem ((c : Thread nD τ).loc main_v2) = G mixK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.Emma.Kernel

end
-- ==== Proof.RefRun.lean ====
/-
  The reference's run, read back.

  The reference is a straight line of 68 host operations once its calls are unfolded: the decay (7 operations and
  `clip`'s 6), the head-wise maximum and the two differences, `nan_to_num` twice (16 operations each: three
  compare-and-select steps, each select a call of `_where`), the two exponentials, their sum clamped below by 1, the
  two quotients broadcast over the lanes, the two products and their sum. Every weakly fair execution ends with the
  result buffer at those operations' composition, which entry by entry is the scalar merge in the host's spelling
  (`mixH`): the broadcasts read their operand at (n), (n, h) or (0); everything else is entry by entry.
-/
import proofs.«161238_j15152644620653_1_alg».proof.Proof.Gen.ReferenceIdeal
import proofs.«161238_j15152644620653_1_alg».proof.Proof.Spec
import Idealize.ShloMosaic.Lib.StableHlo.Run
import Idealize.ShloMosaic.Lib.Pipeline.Value
import Idealize.ShloMosaic.Lib.ValueIdx

noncomputable section

namespace Cert.Emma.Ref

open Cert.ReferenceIdeal Cert.ReferenceIdeal.Gen Idealize.ShloMosaic Idealize.ShloMosaic.TcCoe Idealize.SL.Sem
  Idealize.ShloMosaic.StableHlo Idealize.ShloMosaic.ValueIdx Cert.Emma

variable {F : FTy → Type} [FloatOps F]

/-! ## The operations, the calls unfolded at their call sites -/

/-- @main's 68 operations in order. `clip(v, 0, 1)` is six (each bound converted, broadcast, then the maximum and the
    minimum) into `main_call0`'s buffers; each `nan_to_num(v, -∞)` is sixteen into `main_call1`'s / `main_call2`'s:
    the self-comparison, the fill converted, `_where`'s broadcast and select; +∞, its broadcast, the comparison,
    the largest float, `_where`'s two; -∞, its broadcast, the comparison, the smallest float, `_where`'s two. -/
abbrev ops : List (HloOp τ sig (Elt F)) :=
  [
    unary main_arg5 main_v0 (broadcastInDim S200000 ![0] bcast_S1_S200000_0),
    binary main_v0 main_arg4 main_v1 mulf,
    nullary main_cst (constant S_ .f32 0x3F800000#32),
    unary main_cst main_v2 (broadcastInDim S200000 ![] bcast_S_S200000),
    binary main_v2 main_v1 main_v3 subf,
    nullary main_cst_0 (constant S_ .f32 0x00000000#32),
    nullary main_cst_1 (constant S_ .f32 0x3F800000#32),
    TRef.unary (.of main_cst_0) main_call0.v0 id,
    TRef.unary main_call0.v0 main_call0.v1 (broadcastInDim S200000 ![] bcast_S_S200000),
    TRef.binary main_call0.v1 (.of main_v3) main_call0.v2 maximumf,
    TRef.unary (.of main_cst_1) main_call0.v3 id,
    TRef.unary main_call0.v3 main_call0.v4 (broadcastInDim S200000 ![] bcast_S_S200000),
    TRef.binary main_call0.v4 main_call0.v2 main_call0.v5 minimumf,
    unary main_v4 main_v5 (broadcastInDim S200000x1 ![0] bcast_S200000_S200000x1_0),
    binary main_arg1 main_arg3 main_v6 maximumf,
    binary main_arg3 main_v6 main_v7 subf,
    nullary main_cst_2 (constant S_ .f32 0xFF800000#32),
    TRef.binary (.of main_v7) (.of main_v7) main_call1.v0 (cmpf .une),
    TRef.unary (.of main_cst_2) main_call1.v1 id,
    TRef.unary main_call1.v1 main_call1.call0.v0 (broadcastInDim S200000x8 ![] bcast_S_S200000x8),
    TRef.ternary main_call1.v0 main_call1.call0.v0 (.of main_v7) main_call1.call0.v1 select,
    TRef.nullary main_call1.cst (constant S_ .f32 0x7F800000#32),
    TRef.unary main_call1.cst main_call1.v3 (broadcastInDim S200000x8 ![] bcast_S_S200000x8),
    TRef.binary main_call1.call0.v1 main_call1.v3 main_call1.v4 (cmpf .oeq),
    TRef.nullary main_call1.cst_0 (constant S_ .f32 0x7F7FFFFF#32),
    TRef.unary main_call1.cst_0 main_call1.call1.v0 (broadcastInDim S200000x8 ![] bcast_S_S200000x8),
    TRef.ternary main_call1.v4 main_call1.call1.v0 main_call1.call0.v1 main_call1.call1.v1 select,
    TRef.nullary main_call1.cst_1 (constant S_ .f32 0xFF800000#32),
    TRef.unary main_call1.cst_1 main_call1.v6 (broadcastInDim S200000x8 ![] bcast_S_S200000x8),
    TRef.binary main_call1.call1.v1 main_call1.v6 main_call1.v7 (cmpf .oeq),
    TRef.nullary main_call1.cst_2 (constant S_ .f32 0xFF7FFFFF#32),
    TRef.unary main_call1.cst_2 main_call1.call2.v0 (broadcastInDim S200000x8 ![] bcast_S_S200000x8),
    TRef.ternary main_call1.v7 main_call1.call2.v0 main_call1.call1.v1 main_call1.call2.v1 select,
    unary main_v8 main_v9 Host.exp,
    unary main_v5 main_v10 (broadcastInDim S200000x8 ![0, 1] bcast_S200000x1_S200000x8_0_1),
    binary main_v9 main_v10 main_v11 mulf,
    binary main_arg1 main_v6 main_v12 subf,
    nullary main_cst_3 (constant S_ .f32 0xFF800000#32),
    TRef.binary (.of main_v12) (.of main_v12) main_call2.v0 (cmpf .une),
    TRef.unary (.of main_cst_3) main_call2.v1 id,
    TRef.unary main_call2.v1 main_call2.call0.v0 (broadcastInDim S200000x8 ![] bcast_S_S200000x8),
    TRef.ternary main_call2.v0 main_call2.call0.v0 (.of main_v12) main_call2.call0.v1 select,
    TRef.nullary main_call2.cst (constant S_ .f32 0x7F800000#32),
    TRef.unary main_call2.cst main_call2.v3 (broadcastInDim S200000x8 ![] bcast_S_S200000x8),
    TRef.binary main_call2.call0.v1 main_call2.v3 main_call2.v4 (cmpf .oeq),
    TRef.nullary main_call2.cst_0 (constant S_ .f32 0x7F7FFFFF#32),
    TRef.unary main_call2.cst_0 main_call2.call1.v0 (broadcastInDim S200000x8 ![] bcast_S_S200000x8),
    TRef.ternary main_call2.v4 main_call2.call1.v0 main_call2.call0.v1 main_call2.call1.v1 select,
    TRef.nullary main_call2.cst_1 (constant S_ .f32 0xFF800000#32),
    TRef.unary main_call2.cst_1 main_call2.v6 (broadcastInDim S200000x8 ![] bcast_S_S200000x8),
    TRef.binary main_call2.call1.v1 main_call2.v6 main_call2.v7 (cmpf .oeq),
    TRef.nullary main_call2.cst_2 (constant S_ .f32 0xFF7FFFFF#32),
    TRef.unary main_call2.cst_2 main_call2.call2.v0 (broadcastInDim S200000x8 ![] bcast_S_S200000x8),
    TRef.ternary main_call2.v7 main_call2.call2.v0 main_call2.call1.v1 main_call2.call2.v1 select,
    unary main_v13 main_v14 Host.exp,
    binary main_v11 main_v14 main_v15 addf,
    nullary main_cst_4 (constant S_ .f32 0x3F800000#32),
    unary main_cst_4 main_v16 (broadcastInDim S200000x8 ![] bcast_S_S200000x8),
    binary main_v15 main_v16 main_v17 maximumf,
    binary main_v11 main_v17 main_v18 Host.divf,
    unary main_v18 main_v19 (broadcastInDim S200000x8x1 ![0, 1] bcast_S200000x8_S200000x8x1_0_1),
    binary main_v14 main_v17 main_v20 Host.divf,
    unary main_v20 main_v21 (broadcastInDim S200000x8x1 ![0, 1] bcast_S200000x8_S200000x8x1_0_1),
    unary main_v19 main_v22 (broadcastInDim S200000x8x64 ![0, 1, 2] bcast_S200000x8x1_S200000x8x64_0_1_2),
    binary main_arg2 main_v22 main_v23 mulf,
    unary main_v21 main_v24 (broadcastInDim S200000x8x64 ![0, 1, 2] bcast_S200000x8x1_S200000x8x64_0_1_2),
    binary main_arg0 main_v24 main_v25 mulf,
    binary main_v23 main_v25 main_v26 addf ]

set_option maxRecDepth 4096 in
set_option maxHeartbeats 4000000 in
/-- @main is that straight line: the functions unfolded at their calls, the binds re-associated. -/
theorem main_eq (c : Dev nD) : main (F := F) c = seq ops := by
  simp only [main, fn_clip.body, fn_nan_to_num.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    unary_bufs_sub .., binary_bufs_sub .., nullary_bufs_sub .., unary_bufs_sub .., binary_bufs_sub .., nullary_bufs_sub ..,
    nullary_bufs_sub .., unary_bufs_sub .., unary_bufs_sub .., binary_bufs_sub .., unary_bufs_sub .., unary_bufs_sub ..,
    binary_bufs_sub .., unary_bufs_sub .., binary_bufs_sub .., binary_bufs_sub .., nullary_bufs_sub .., binary_bufs_sub ..,
    unary_bufs_sub .., unary_bufs_sub .., ternary_bufs_sub .., nullary_bufs_sub .., unary_bufs_sub .., binary_bufs_sub ..,
    nullary_bufs_sub .., unary_bufs_sub .., ternary_bufs_sub .., nullary_bufs_sub .., unary_bufs_sub .., binary_bufs_sub ..,
    nullary_bufs_sub .., unary_bufs_sub .., ternary_bufs_sub .., unary_bufs_sub .., unary_bufs_sub .., binary_bufs_sub ..,
    binary_bufs_sub .., nullary_bufs_sub .., binary_bufs_sub .., unary_bufs_sub .., unary_bufs_sub .., ternary_bufs_sub ..,
    nullary_bufs_sub .., unary_bufs_sub .., binary_bufs_sub .., nullary_bufs_sub .., unary_bufs_sub .., ternary_bufs_sub ..,
    nullary_bufs_sub .., unary_bufs_sub .., binary_bufs_sub .., nullary_bufs_sub .., unary_bufs_sub .., ternary_bufs_sub ..,
    unary_bufs_sub .., binary_bufs_sub .., nullary_bufs_sub .., unary_bufs_sub .., binary_bufs_sub .., binary_bufs_sub ..,
    unary_bufs_sub .., binary_bufs_sub .., unary_bufs_sub .., unary_bufs_sub .., binary_bufs_sub .., unary_bufs_sub ..,
    binary_bufs_sub .., binary_bufs_sub ..⟩

/-! ## The composition, as one function of the six arguments -/

/-- The decay per row: inv_w's one entry broadcast down the rows, times agg_n, from 1, clamped to [0, 1]. -/
def decayRows (g : FVec F S200000 .f32) (w : FVec F S1 .f32) : FVec F S200000 .f32 :=
  fun n => decay (broadcastInDim S200000 ![0] bcast_S1_S200000_0 w n) (g n)

/-- A per-row value given a unit axis and broadcast over the 8 heads. -/
def heads (u : FVec F S200000 .f32) : FVec F S200000x8 .f32 :=
  broadcastInDim S200000x8 ![0, 1] bcast_S200000x1_S200000x8_0_1 (broadcastInDim S200000x1 ![0] bcast_S200000_S200000x1_0 u)

/-- A per-(row, head) value given a unit axis and broadcast over the 64 lanes. -/
def lanes (u : FVec F S200000x8 .f32) : FVec F S200000x8x64 .f32 :=
  broadcastInDim S200000x8x64 ![0, 1, 2] bcast_S200000x8x1_S200000x8x64_0_1_2
    (broadcastInDim S200000x8x1 ![0, 1] bcast_S200000x8_S200000x8x1_0_1 u)

/-- The history's weight p per (row, head). -/
def pRows (a m : FVec F S200000x8 .f32) (g : FVec F S200000 .f32) (w : FVec F S1 .f32) : FVec F S200000x8 .f32 :=
  fun k => FloatOps.mulf (FloatOps.hostUnary .exp (clean .une (FloatOps.subf (m k) (FloatOps.maximumf (a k) (m k)))))
    (heads (decayRows g w) k)

/-- The new value's weight q per (row, head). -/
def qRows (a m : FVec F S200000x8 .f32) : FVec F S200000x8 .f32 :=
  fun k => FloatOps.hostUnary .exp (clean .une (FloatOps.subf (a k) (FloatOps.maximumf (a k) (m k))))

/-- The normalizer t = max (p + q) 1 per (row, head). -/
def tRows (a m : FVec F S200000x8 .f32) (g : FVec F S200000 .f32) (w : FVec F S1 .f32) : FVec F S200000x8 .f32 :=
  fun k => FloatOps.maximumf (FloatOps.addf (pRows a m g w k) (qRows a m k)) (FloatOps.ofBits .f32 0x3F800000#32)

/-- The result: his_x · lanes (p / t) + x · lanes (q / t). -/
def refOut (x : FVec F S200000x8x64 .f32) (a : FVec F S200000x8 .f32) (hx : FVec F S200000x8x64 .f32) (m : FVec F S200000x8 .f32)
    (g : FVec F S200000 .f32) (w : FVec F S1 .f32) : FVec F S200000x8x64 .f32 :=
  fun i => FloatOps.addf
    (FloatOps.mulf (hx i) (lanes (fun k => FloatOps.hostDivf (pRows a m g w k) (tRows a m g w k)) i))
    (FloatOps.mulf (x i) (lanes (fun k => FloatOps.hostDivf (qRows a m k) (tRows a m g w k)) i))

set_option maxRecDepth 8192 in
set_option maxHeartbeats 1000000 in
/-- The fold of the 68 operations at the result buffer is that function of the argument buffers' contents: each
    operation's result is its function of the buffers it reads, and the constants and converts drop out entry by entry. -/
theorem out_eq (V : Valuation τ sig (Elt F)) :
    after ops V (main_v26 : DevRef τ sig)
      = refOut (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  after_results_simp
  rfl

set_option maxRecDepth 8192 in
set_option maxHeartbeats 1000000 in
/-- No operation writes an argument buffer. -/
theorem args_kept (V : Valuation τ sig (Elt F)) :
    after ops V (main_arg0 : DevRef τ sig) = V (main_arg0 : DevRef τ sig)
    ∧ after ops V (main_arg1 : DevRef τ sig) = V (main_arg1 : DevRef τ sig)
    ∧ after ops V (main_arg2 : DevRef τ sig) = V (main_arg2 : DevRef τ sig)
    ∧ after ops V (main_arg3 : DevRef τ sig) = V (main_arg3 : DevRef τ sig)
    ∧ after ops V (main_arg4 : DevRef τ sig) = V (main_arg4 : DevRef τ sig)
    ∧ after ops V (main_arg5 : DevRef τ sig) = V (main_arg5 : DevRef τ sig) := by
  refine ⟨?_, ?_, ?_, ?_, ?_, ?_⟩ <;> after_results_simp

/-- On every device, from any memory with zero counters: every weakly fair execution of the reference terminates with
    the result buffer at `refOut` of the arguments' launch contents, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v26)
          = refOut (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v26).trans (out_eq _),
      (h c main_arg0).trans (args_kept _).1,
      (h c main_arg1).trans (args_kept _).2.1,
      (h c main_arg2).trans (args_kept _).2.2.1,
      (h c main_arg3).trans (args_kept _).2.2.2.1,
      (h c main_arg4).trans (args_kept _).2.2.2.2.1,
      (h c main_arg5).trans (args_kept _).2.2.2.2.2⟩)
    (run_seq scopedRefs_eq scopedSems_eq defs main (fun _ => ops) main_eq (fun _ => ops_sub) m ρ)

/-! ## The composition read at an index -/

theorem heads_apply (u : FVec F S200000 .f32) (n : Fin 200000) (h : Fin 8) : heads u (ix2 n h) = u (ix1 n) := by
  unfold heads
  refine (broadcastInDim_apply _ _ _ _ (ix2 n (0 : Fin 1)) (fun a => match a with | ⟨0, _⟩ => rfl | ⟨1, _⟩ => rfl)).trans ?_
  exact broadcastInDim_apply _ _ _ _ (ix1 n) (fun a => match a with | ⟨0, _⟩ => rfl)

theorem lanes_apply (u : FVec F S200000x8 .f32) (n : Fin 200000) (h : Fin 8) (d : Fin 64) : lanes u (ix3 n h d) = u (ix2 n h) := by
  unfold lanes
  refine (broadcastInDim_apply _ _ _ _ (ix3 n h (0 : Fin 1)) (fun a => match a with | ⟨0, _⟩ => rfl | ⟨1, _⟩ => rfl | ⟨2, _⟩ => rfl)).trans ?_
  exact broadcastInDim_apply _ _ _ _ (ix2 n h) (fun a => match a with | ⟨0, _⟩ => rfl | ⟨1, _⟩ => rfl)

theorem decayRows_apply (g : FVec F S200000 .f32) (w : FVec F S1 .f32) (n : Fin 200000) :
    decayRows g w (ix1 n) = decay (w (ix1 (0 : Fin 1))) (g (ix1 n)) := by
  unfold decayRows
  rw [broadcastInDim_apply _ _ w (ix1 n) (ix1 (0 : Fin 1)) (fun a => match a with | ⟨0, _⟩ => rfl)]

/-- ENTRY (n, h, d) OF THE REFERENCE'S RESULT is the merge, in the host's spelling, of x and his_x at (n, h, d), max_a and
    his_m at (n, h), agg_n at n and inv_w's entry. -/
theorem refOut_apply (x : FVec F S200000x8x64 .f32) (a : FVec F S200000x8 .f32) (hx : FVec F S200000x8x64 .f32) (m : FVec F S200000x8 .f32)
    (g : FVec F S200000 .f32) (w : FVec F S1 .f32) (n : Fin 200000) (h : Fin 8) (d : Fin 64) :
    refOut x a hx m g w (ix3 n h d)
      = mixH (x (ix3 n h d)) (hx (ix3 n h d)) (a (ix2 n h)) (m (ix2 n h)) (g (ix1 n)) (w (ix1 (0 : Fin 1))) := by
  unfold refOut
  rw [lanes_apply, lanes_apply]
  unfold tRows pRows qRows
  rw [heads_apply, decayRows_apply]
  rfl

/-- So the reference's result is the array `G` in the host's spelling. -/
theorem refOut_eq_G (x : FVec F S200000x8x64 .f32) (a : FVec F S200000x8 .f32) (hx : FVec F S200000x8x64 .f32) (m : FVec F S200000x8 .f32)
    (g : FVec F S200000 .f32) (w : FVec F S1 .f32) : refOut x a hx m g w = G mixH x a hx m g w := by
  funext i
  obtain ⟨n, h, d, rfl⟩ : ∃ (n : Fin 200000) (h : Fin 8) (d : Fin 64), i = ix3 n h d := ⟨i 0, i 1, i 2, eq_ix3 i⟩
  rw [refOut_apply]
  rfl

end Cert.Emma.Ref

end
-- ==== Proof.lean ====
/-
  The online EMA merge with log-sum-exp stabilization: a pipelined Pallas kernel over 100 blocks of 2000 rows against
  its jnp reference, equal over the extended reals.

  Both programs compute, for every row n, head h and lane d,
      out[n,h,d] = his_x[n,h,d] · (p / t) + x[n,h,d] · (q / t),
      p = exp (clean (his_m[n,h] - M)) · β,  q = exp (clean (max_a[n,h] - M)),  M = max max_a[n,h] his_m[n,h],
      t = max (p + q) 1,  β = min 1 (max 0 (1 - inv_w[0] · agg_n[n])),
  with the same operations in the same order (Proof/Spec.lean: `mix`); they differ only in how three operations are
  spelt — the test "v ≠ v" inside `clean`, the exponential and the quotient — and over the extended reals those
  spellings are the same functions, so no algebraic law and no finiteness of the inputs is needed.

  The kernel's side: entry by entry the body leaves that merge of its six blocks (Proof/KPayload.lean), point t writes
  back block t of the merged array and the blocks tile the result (Proof/KFinal.lean). The reference's side: its 68
  host operations compose to the same array (Proof/RefRun.lean). The three frames are the generated frame runs for the
  two kernels and the reference's run with its result dropped; the idealization rewrote nothing, so `preserves` is
  trivial.
-/
import proofs.«161238_j15152644620653_1_alg».proof.Defs
import proofs.«161238_j15152644620653_1_alg».proof.Proof.Gen.Kernel
import proofs.«161238_j15152644620653_1_alg».proof.Proof.Gen.Kernel.Skeleton
import proofs.«161238_j15152644620653_1_alg».proof.Proof.Gen.Kernel.Launch
import proofs.«161238_j15152644620653_1_alg».proof.Proof.Gen.Kernel.Points
import proofs.«161238_j15152644620653_1_alg».proof.Proof.Gen.Kernel.Frame
import proofs.«161238_j15152644620653_1_alg».proof.Proof.Gen.KernelIdeal
import proofs.«161238_j15152644620653_1_alg».proof.Proof.Gen.KernelIdeal.Skeleton
import proofs.«161238_j15152644620653_1_alg».proof.Proof.Gen.KernelIdeal.Launch
import proofs.«161238_j15152644620653_1_alg».proof.Proof.Gen.KernelIdeal.Points
import proofs.«161238_j15152644620653_1_alg».proof.Proof.Gen.KernelIdeal.Frame
import proofs.«161238_j15152644620653_1_alg».proof.Proof.Gen.ReferenceIdeal
import proofs.«161238_j15152644620653_1_alg».proof.Proof.Gen.Pre_finite_inputs
import proofs.«161238_j15152644620653_1_alg».proof.Proof.Spec
import proofs.«161238_j15152644620653_1_alg».proof.Proof.KFinal
import proofs.«161238_j15152644620653_1_alg».proof.Proof.RefRun
import Idealize.ShloMosaic.Adequacy
import Idealize.ShloMosaic.Init

noncomputable section

namespace Cert.Proof

open Idealize.ShloMosaic Idealize.ShloMosaic.TcCoe Idealize.SL.Sem Cert.Emma

/-- Over the extended reals the merged array is the same in the host's spelling and in the kernel's. -/
theorem G_host_eq (x : SX.Idx → Elt Ideal .f32) (a : SM.Idx → Elt Ideal .f32) (hx : SX.Idx → Elt Ideal .f32)
    (m : SM.Idx → Elt Ideal .f32) (g : SA.Idx → Elt Ideal .f32) (w : SW.Idx → Elt Ideal .f32) :
    G mixH x a hx m g w = G mixK x a hx m g w :=
  funext fun _ => mixH_eq_mixK _ _ _ _ _ _

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.Emma.Ref.run (F := Ideal) m ρ)

/-- Both runs end with the merged array of arguments that agree: the kernel's by its blocks, the reference's by its
    operations' composition, the two spellings one function over the extended reals. -/
theorem algebraic : Cert.algebraic_KernelIdeal_ReferenceIdeal := by
  intro m ρ m' ρ' _ hagree
  refine ⟨_, Cert.Emma.Kernel.run (F := Ideal) m ρ, ?_⟩
  refine (θ_run Cert.ReferenceIdeal.defs _ _).mono (fun _ h c => ⟨(h c).1.trans ?_, (h c).2⟩)
    (Cert.Emma.Ref.run (F := Ideal) m' ρ')
  rw [(hagree c).1, (hagree c).2.1, (hagree c).2.2.1, (hagree c).2.2.2.1, (hagree c).2.2.2.2.1, (hagree c).2.2.2.2.2,
    Cert.Emma.Ref.refOut_eq_G]
  exact G_host_eq _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
